-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S10000x512 : Shape := ⟨2, ![10000, 512]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_

variable [Facts]

def fn {F : FTy → Type} [FloatOps F] (main_arg0 : FVec F S4096x512 .f32) (main_arg1 : IVec S4096 32) (main_arg2 : FVec F S10000x512 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S10000x512 .f32 := Host.absf main_arg2
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  main_v8
-- ==== Kernel.lean ====
abbrev S4096x512 : Shape := ⟨2, ![4096, 512]⟩
abbrev S4096 : Shape := ⟨1, ![4096]⟩
abbrev S10000x512 : Shape := ⟨2, ![10000, 512]⟩
abbrev S4096x1 : Shape := ⟨2, ![4096, 1]⟩
abbrev S_ : Shape := ⟨0, ![]⟩
abbrev S10000 : Shape := ⟨1, ![10000]⟩
abbrev S10000x1 : Shape := ⟨2, ![10000, 1]⟩
abbrev S1x10000 : Shape := ⟨2, ![1, 10000]⟩
abbrev S1x1 : Shape := ⟨2, ![1, 1]⟩
abbrev S64x512 : Shape := ⟨2, ![64, 512]⟩
abbrev S64x1 : Shape := ⟨2, ![64, 1]⟩
abbrev S64x10000 : Shape := ⟨2, ![64, 10000]⟩
abbrev S64 : Shape := ⟨1, ![64]⟩
abbrev S1 : Shape := ⟨1, ![1]⟩

abbrev nBuf : Space → Nat
  | .hbm => 17
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S4096x1, .i32⟩
  | .hbm, ⟨4, _⟩ => ⟨S4096x512, .bf16⟩
  | .hbm, ⟨5, _⟩ => ⟨S10000x512, .bf16⟩
  | .hbm, ⟨6, _⟩ => ⟨S4096x512, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S10000x512, .f32⟩
  | .hbm, ⟨11, _⟩ => ⟨S_, .f32⟩
  | .hbm, ⟨12, _⟩ => ⟨S10000, .f32⟩
  | .hbm, ⟨13, _⟩ => ⟨S10000x1, .f32⟩
  | .hbm, ⟨14, _⟩ => ⟨S1x10000, .f32⟩
  | .hbm, ⟨15, _⟩ => ⟨S1x1, .f32⟩
  | .hbm, ⟨16, _⟩ => ⟨S_, .f32⟩
  | .local _ .vmem, ⟨0, _⟩ => ⟨S64x512, .bf16⟩
  | .local _ .vmem, ⟨1, _⟩ => ⟨S64x512, .bf16⟩
  | .local _ .vmem, ⟨2, _⟩ => ⟨S10000x512, .bf16⟩
  | .local _ .vmem, ⟨3, _⟩ => ⟨S64x1, .f32⟩
  | .local _ .vmem, ⟨4, _⟩ => ⟨S64x1, .f32⟩
  | .local _ .vmem, ⟨5, _⟩ => ⟨S1x10000, .f32⟩
  | .local _ .vmem, ⟨6, _⟩ => ⟨S64x1, .i32⟩
  | .local _ .vmem, ⟨7, _⟩ => ⟨S64x1, .i32⟩
  | .local _ .vmem, ⟨8, _⟩ => ⟨S1x1, .f32⟩
  | .local _ .vmem, ⟨9, _⟩ => ⟨S1x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x10000 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S64x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  shapeCasts_S4096_S4096x1 : S4096.ShapeCasts S4096x1
  bitsLt_bf16_f32 : FTy.bits .bf16 < FTy.bits .f32
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S10000x512_S10000_d1 : S10000x512.ReducesTo [1] S10000
  bcast_S10000_S10000x1_0 : S10000.BroadcastsInDim S10000x1 (![0] : Fin 1 → Fin S10000x1.rank)
  transposes_S10000x1_S1x10000_1_0 : S10000x1.Transposes [1, 0] S1x10000
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S64x512_S64x512_0_0 : ∀ a, (![0, 0] : Fin 2 → Nat) a + S64x512.size a ≤ S64x512.size a
  h_S64x512 : 0 < S64x512.numel
  shapeCasts_S64x512_S64x512 : S64x512.ShapeCasts S64x512
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x10000_S1x10000_0_0 : ∀ a, (![0, 0] : Fin 2 → Nat) a + S1x10000.size a ≤ S1x10000.size a
  h_S1x10000 : 0 < S1x10000.numel
  shapeCasts_S1x10000_S1x10000 : S1x10000.ShapeCasts S1x10000
  broadcasts_S64x1_S64x10000 : S64x1.Broadcasts S64x10000
  broadcasts_S1x10000_S64x10000 : S1x10000.Broadcasts S64x10000
  iota_S64x10000_d1_w32 : S64x10000.Iotas .tc 32 [1]
  reduces_S64x10000_S64 : S64x10000.Reduces [1] S64
  shapeCasts_S64_S64x1 : S64.ShapeCasts S64x1
  reduces_S64x1_S1 : S64x1.Reduces [0] S1
  shapeCasts_S1_S1x1 : S1.ShapeCasts S1x1
  shapeCasts_S1x1_S_ : S1x1.ShapeCasts S_
  dot_S64x512_S10000x512_S64x10000_1_1_0_0_n_n_wf : DotDims.WF S64x512 S10000x512 S64x10000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x512.size a ≤ S4096x512.size a
  hwx0_0 : ∀ i : grid0.Coords, EltTy.bits .bf16 = 32 ∨ (Rect.block (s := S4096x512) S64x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x512.size a ≤ S10000x512.size a
  hwx0_1 : ∀ i : grid0.Coords, EltTy.bits .bf16 = 32 ∨ (Rect.block (s := S10000x512) S10000x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1.size a ≤ S4096x1.size a
  hwx0_2 : ∀ i : grid0.Coords, EltTy.bits .f32 = 32 ∨ (Rect.block (s := S4096x1) S64x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x10000.size a ≤ S1x10000.size a
  hwx0_3 : ∀ i : grid0.Coords, EltTy.bits .f32 = 32 ∨ (Rect.block (s := S1x10000) S1x10000.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S4096x1.size a
  hwx0_4 : ∀ i : grid0.Coords, EltTy.bits .i32 = 32 ∨ (Rect.block (s := S4096x1) S64x1.size (cc0_transform_4 i) (hinb0_4 i)).WholeWords (EltTy.packing .i32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S64x512_S10000x512_S64x10000_1_1_0_0_n_n : DotDims S64x512 S10000x512 S64x10000 where
  lhsContracting := [1]
  rhsContracting := [1]
  lhsNonContracting := [0]
  rhsNonContracting := [0]
  lhsBatch := []
  rhsBatch := []
  wf := dot_S64x512_S10000x512_S64x10000_1_1_0_0_n_n_wf

abbrev win0_0 : Pipeline.Window sig grid0 :=
  Pipeline.Window.ofSpec (Memref.whole main_v1) S64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S10000x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x10000.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S64x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S10000x512 : Shape := ⟨2, ![10000, 512]⟩
abbrev S_ : Shape := ⟨0, ![]⟩
abbrev S4096x1 : Shape := ⟨2, ![4096, 1]⟩
abbrev S10000 : Shape := ⟨1, ![10000]⟩
abbrev S1x10000 : Shape := ⟨2, ![1, 10000]⟩
abbrev S4096x10000 : Shape := ⟨2, ![4096, 10000]⟩
abbrev S512x10000 : Shape := ⟨2, ![512, 10000]⟩

abbrev nBuf : Space → Nat
  | .hbm => 40
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S10000x512, .f32⟩
  | .hbm, ⟨3, _⟩ => ⟨S4096x512, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S10000x512, .f32⟩
  | .hbm, ⟨8, _⟩ => ⟨S_, .f32⟩
  | .hbm, ⟨9, _⟩ => ⟨S10000, .f32⟩
  | .hbm, ⟨10, _⟩ => ⟨S1x10000, .f32⟩
  | .hbm, ⟨11, _⟩ => ⟨S4096x10000, .f32⟩
  | .hbm, ⟨12, _⟩ => ⟨S4096x10000, .f32⟩
  | .hbm, ⟨13, _⟩ => ⟨S4096x10000, .f32⟩
  | .hbm, ⟨14, _⟩ => ⟨S512x10000, .f32⟩
  | .hbm, ⟨15, _⟩ => ⟨S4096x10000, .f32⟩
  | .hbm, ⟨16, _⟩ => ⟨S_, .f32⟩
  | .hbm, ⟨17, _⟩ => ⟨S4096x10000, .f32⟩
  | .hbm, ⟨18, _⟩ => ⟨S4096x10000, .f32⟩
  | .hbm, ⟨19, _⟩ => ⟨S4096x10000, .f32⟩
  | .hbm, ⟨20, _⟩ => ⟨S10000, .i32⟩
  | .hbm, ⟨21, _⟩ => ⟨S4096x1, .i32⟩
  | .hbm, ⟨22, _⟩ => ⟨S1x10000, .i32⟩
  | .hbm, ⟨23, _⟩ => ⟨S4096x10000, .i32⟩
  | .hbm, ⟨24, _⟩ => ⟨S4096x10000, .i32⟩
  | .hbm, ⟨25, _⟩ => ⟨S4096x10000, .i1⟩
  | .hbm, ⟨26, _⟩ => ⟨S4096x10000, .f32⟩
  | .hbm, ⟨27, _⟩ => ⟨S4096x10000, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4096x10000, .f32⟩
  | .hbm, ⟨32, _⟩ => ⟨S4096x10000, .f32⟩
  | .hbm, ⟨33, _⟩ => ⟨S_, .f32⟩
  | .hbm, ⟨34, _⟩ => ⟨S4096x10000, .f32⟩
  | .hbm, ⟨35, _⟩ => ⟨S4096x10000, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  reducesTo_S10000x512_S10000_d1 : S10000x512.ReducesTo [1] S10000
  bcast_S10000_S1x10000_1 : S10000.BroadcastsInDim S1x10000 (![1] : Fin 1 → Fin S1x10000.rank)
  bcast_S4096x1_S4096x10000_0_1 : S4096x1.BroadcastsInDim S4096x10000 (![0, 1] : Fin 2 → Fin S4096x10000.rank)
  bcast_S1x10000_S4096x10000_0_1 : S1x10000.BroadcastsInDim S4096x10000 (![0, 1] : Fin 2 → Fin S4096x10000.rank)
  transposes_S10000x512_S512x10000_1_0 : S10000x512.Transposes [1, 0] S512x10000
  bcast_S_S4096x10000 : S_.BroadcastsInDim S4096x10000 (![] : Fin 0 → Fin S4096x10000.rank)
  reducesTo_S4096x10000_S_d0_1 : S4096x10000.ReducesTo [0, 1] S_
  dot_S4096x512_S512x10000_S4096x10000_1_0_0_1_n_n_wf : DotDims.WF S4096x512 S512x10000 S4096x10000 [1] [0] [0] [1] [] []

variable [Facts₀]

def dot_S4096x512_S512x10000_S4096x10000_1_0_0_1_n_n : DotDims S4096x512 S512x10000 S4096x10000 where
  lhsContracting := [1]
  rhsContracting := [0]
  lhsNonContracting := [0]
  rhsNonContracting := [1]
  lhsBatch := []
  rhsBatch := []
  wf := dot_S4096x512_S512x10000_S4096x10000_1_0_0_1_n_n_wf

class Facts : Prop extends Facts₀ where

variable [Facts]
-- ==== Proof.Spec.lean ====
/-
  The centre loss, as one function of the three argument arrays over the extended reals.

  For a sample row `b` of `x` (4096 rows of 512 features) and a class row `c` of `centers` (10000 rows), the
  squared distance is written the expanded way, `‖x_b‖² + ‖c_c‖² − 2·⟨x_b, c_c⟩`. Only the entry of a sample's own
  class (the column equal to its label) keeps its distance; every other entry is zero. Every entry, kept or not,
  is then clamped to `[lo, hi]`, all 4096 × 10000 clamped entries are summed, and the sum is divided by the number
  of samples. The float literals stay as their bit patterns: the same word is read on both sides and is never
  evaluated.
-/
import Idealize.ShloMosaic.PureOps.Ideal
import Idealize.ShloMosaic.PureOps.Ideal.Laws
import Idealize.ShloMosaic.Lib.ValueIdx

noncomputable section

namespace Cert.CenterLoss

open Idealize.ShloMosaic Idealize.ShloMosaic.ValueIdx

/-- The sample matrix's shape, the labels' and the class centres'. -/
abbrev SX : Shape := ⟨2, ![4096, 512]⟩
abbrev SL : Shape := ⟨1, ![4096]⟩
abbrev SC : Shape := ⟨2, ![10000, 512]⟩

/-- The literal `2.0`, the clamp's lower bound `1e-12` and upper bound `1e12` (as f32 round them), and the sample count `4096.0`. -/
abbrev two : EReal := Ideal.ofBits .f32 0x40000000#32
abbrev lo : EReal := Ideal.ofBits .f32 0x2B8CBCCC#32
abbrev hi : EReal := Ideal.ofBits .f32 0x5368D4A5#32
abbrev cnt : EReal := Ideal.ofBits .f32 0x45800000#32

/-- The clamp to `[lo, hi]`: first the maximum with `lo`, then the minimum with `hi`. -/
def clamp (v : EReal) : EReal := min hi (max lo v)

/-- One clamped entry from its four ingredients: the sample's squared norm `xs`, the centre's squared norm `cs`,
    their inner product `d`, and whether the column is the sample's label. -/
def entryOf (xs cs d : EReal) (hit : Prop) [Decidable hit] : EReal :=
  clamp (if hit then (xs + cs) - two * d else 0)

/-- The squared norm of row `r` of a matrix with 512 columns. -/
def sqNorm {n : Nat} (a : (⟨2, ![n, 512]⟩ : Shape).Idx → EReal) (r : Fin n) : EReal :=
  ∑ k : Fin 512, a (ix2 r k) * a (ix2 r k)

/-- The inner product of sample `b` and centre `c`. -/
def inner (x : SX.Idx → EReal) (cen : SC.Idx → EReal) (b : Fin 4096) (c : Fin 10000) : EReal :=
  ∑ k : Fin 512, x (ix2 b k) * cen (ix2 c k)

/-- The clamped entry at sample `b`, class `c`. -/
def entry (x : SX.Idx → EReal) (lab : SL.Idx → BitVec 32) (cen : SC.Idx → EReal) (b : Fin 4096) (c : Fin 10000) : EReal :=
  entryOf (sqNorm x b) (sqNorm cen c) (inner x cen b c) (lab (ix1 b) = BitVec.ofNat 32 c.val)

/-- The loss: all clamped entries summed, over the sample count. -/
def loss (x : SX.Idx → EReal) (lab : SL.Idx → BitVec 32) (cen : SC.Idx → EReal) : EReal :=
  Ideal.div (∑ b : Fin 4096, ∑ c : Fin 10000, entry x lab cen b c) cnt

/-- A one-bit equality test selecting between two values is an `if` on the equality. -/
theorem select_cmpi_eq {α : Type} (a b : BitVec 32) (u v : α) :
    Scalar.select (IntOp.cmpi .eq a b) u v = if a = b then u else v := by
  by_cases h : a = b
  · simp [IntOp.cmpi, Scalar.select, h]
  · have hb : (a == b) = false := by simpa using h
    simp [IntOp.cmpi, Scalar.select, hb, h]

end Cert.CenterLoss

end
-- ==== Proof.RefSide.lean ====
/-
  The reference's result is the centre loss.

  Entry by entry: at sample `b` and class `c` the reference forms the two squared norms as row sums of squares,
  the inner product as a row-by-row sum of products, the expanded squared distance from them, multiplies it by the
  one-bit mask of "the label of `b` is `c`" read as a number, and clamps. Over the extended reals a product with
  `1` keeps every value and a product with `0` is `0` for every value, the infinite ones included, so the masked
  product is the specification's choice between the distance and zero. The total is then the sum of all entries,
  started from the zero word (which is the number zero), over the sample count; a sum over all pairs of coordinates
  is the double sum over samples and classes.
-/
import proofs.«121600_j1726576857091_1_alg».proof.Proof.Spec
import proofs.«121600_j1726576857091_1_alg».proof.Proof.Gen.ReferenceIdeal.Read

noncomputable section

namespace Cert.CenterLoss.RefSide

open Idealize.ShloMosaic Idealize.ShloMosaic.ValueIdx Cert.ReferenceIdeal Cert.ReferenceIdeal.Read

/-! ## Where each stage reads its operands, at the entry of sample `b` and class `c` -/

/-- The sample's squared norm, broadcast along the classes, sums row `b` of the samples. -/
theorem ix_xrow (b : Fin 4096) (c : Fin 10000) (k : Fin 512) :
    idx_main_v1 (idx_main_v2 (idx_main_v6 (ix2 b c))) k = ix2 b k :=
  funext fun a => Fin.ext (by match a with | ⟨0, _⟩ => rfl | ⟨1, _⟩ => rfl)

/-- The centre's squared norm, broadcast along the samples, sums row `c` of the centres. -/
theorem ix_crow (b : Fin 4096) (c : Fin 10000) (k : Fin 512) :
    idx_main_v4 (idx_main_v5 (idx_main_v7 (ix2 b c))) k = ix2 c k :=
  funext fun a => Fin.ext (by match a with | ⟨0, _⟩ => rfl | ⟨1, _⟩ => rfl)

/-- The contraction's left factor at feature `k` is the sample's entry `(b, k)`. -/
theorem ix_dotl (b : Fin 4096) (c : Fin 10000) (k : Fin 512) :
    lidx_main_v10 (ix2 b c) k = ix2 b k :=
  funext fun a => Fin.ext (by match a with | ⟨0, _⟩ => rfl | ⟨1, _⟩ => rfl)

/-- Its right factor, read through the transposition, is the centre's entry `(c, k)`. -/
theorem ix_dotr (b : Fin 4096) (c : Fin 10000) (k : Fin 512) :
    idx_main_v9 (ridx_main_v10 (ix2 b c) k) = ix2 c k :=
  funext fun a => Fin.ext (by match a with | ⟨0, _⟩ => rfl | ⟨1, _⟩ => rfl)

/-- The label compared at `(b, c)` is the label of sample `b`. -/
theorem ix_lab (b : Fin 4096) (c : Fin 10000) :
    idx_main_v15 (idx_main_v17 (ix2 b c)) = ix1 b :=
  funext fun a => Fin.ext (by match a with | ⟨0, _⟩ => rfl)

/-- The column coordinate of `(b, c)` is `c`: the class number the label is compared with. -/
theorem ix_col (b : Fin 4096) (c : Fin 10000) : (ix2 b c) 1 = c := rfl

/-! ## The mask -/

/-- The compare's one bit, read as an unsigned integer, is `1` where the two words agree and `0` elsewhere. -/
theorem mask_eq (u v : BitVec 32) :
    FloatOps.uitofp (F := Ideal) .f32 (IntOp.cmpi .eq u v) = if u = v then (1 : EReal) else 0 := by
  by_cases h : u = v
  · have hc : IntOp.cmpi .eq u v = 1#1 := by simp [IntOp.cmpi, h]
    rw [hc, if_pos h]
    show (((1#1 : BitVec 1).toNat : ℝ) : EReal) = 1
    simp
  · have hb : (u == v) = false := by simpa using h
    have hc : IntOp.cmpi .eq u v = 0#1 := by simp [IntOp.cmpi, hb]
    rw [hc, if_neg h]
    show (((0#1 : BitVec 1).toNat : ℝ) : EReal) = 0
    simp

/-! ## One entry -/

/-- The reference's clamped, masked distance at `(b, c)` is the specification's entry: the two row sums of squares
    and the row sum of products are the specification's, each started from the zero word, and the product with the
    mask is the distance on the label's column and zero off it. -/
theorem entry_eq (x0 : (⟨S4096x512, .f32⟩ : BufTy).Contents (Elt Ideal)) (x1 : (⟨S4096, .i32⟩ : BufTy).Contents (Elt Ideal))
    (x2 : (⟨S10000x512, .f32⟩ : BufTy).Contents (Elt Ideal)) (b : Fin 4096) (c : Fin 10000) :
    val_main_v22 (F := Ideal) x0 x1 x2 (ix2 b c) = entry x0 x1 x2 b c := by
  simp only [val_main_v22_apply, val_main_call0_v4_apply, val_main_call0_v3_apply, val_main_cst_3_apply,
    val_main_call0_v2_apply, val_main_call0_v1_apply, val_main_call0_v0_apply, val_main_cst_2_apply,
    val_main_v21_apply, val_main_v13_apply, val_main_v8_apply, val_main_v6_apply, val_main_v2_apply, val_main_v1_apply,
    val_main_cst_apply, val_main_v0_apply, val_main_v7_apply, val_main_v5_apply, val_main_v4_apply, val_main_cst_0_apply,
    val_main_v3_apply, val_main_v12_apply, val_main_v11_apply, val_main_cst_1_apply, val_main_v10_apply, val_main_v9_apply,
    val_main_v20_apply, val_main_v19_apply, val_main_v17_apply, val_main_v15_apply, val_main_v18_apply, val_main_v16_apply,
    val_main_v14_apply]
  simp only [ix_xrow, ix_crow, ix_dotl, ix_dotr, ix_lab, ix_col, Ideal.ofBits_def, Ideal.mulf_def, Ideal.addf_def, Ideal.subf_def,
    Ideal.maximumf_def, Ideal.minimumf_def, Ideal.ofBits_zero_f32, zero_add, mask_eq]
  unfold entry entryOf clamp sqNorm inner
  by_cases h : x1 (ix1 b) = BitVec.ofNat 32 c.val
  · rw [if_pos h, if_pos h, mul_one]
  · rw [if_neg h, if_neg h, mul_zero]

/-! ## The total -/

theorem ref_eq (x0 : (⟨S4096x512, .f32⟩ : BufTy).Contents (Elt Ideal)) (x1 : (⟨S4096, .i32⟩ : BufTy).Contents (Elt Ideal))
    (x2 : (⟨S10000x512, .f32⟩ : BufTy).Contents (Elt Ideal)) :
    val_main_v24 (F := Ideal) x0 x1 x2 = fun _ => loss x0 x1 x2 := by
  funext i
  rw [val_main_v24_apply, val_main_v23_apply, val_main_cst_4_apply, val_main_cst_5_apply]
  simp only [Ideal.hostDivf_def, Ideal.ofBits_def, Ideal.ofBits_zero_f32, zero_add]
  rw [sum_idx2 (val_main_v22 (F := Ideal) x0 x1 x2)]
  unfold loss
  refine congrArg (Ideal.div · cnt) ?_
  exact Finset.sum_congr rfl fun b _ => Finset.sum_congr rfl fun c _ => entry_eq x0 x1 x2 b c

end Cert.CenterLoss.RefSide

end
-- ==== Proof.Payload.lean ====
/-
  The kernel body's arithmetic at one grid point, read at its one index.

  From a block of 64 samples, all 10000 centres, the block's squared norms as a column, the centres' squared norms
  as a row and the block's labels as a column, the body forms the 64 × 10000 matrix of inner products on the matrix
  unit (into a zero accumulator: just the sums of products), the expanded squared distances, keeps the entry of each
  row's own label and puts zero elsewhere, clamps, sums each row, sums the 64 row sums, and adds the result to the
  incoming total. Read entry by entry, the clamped matrix is the specification's `entryOf`, and the two sums are
  the double sum over rows and columns.
-/
import proofs.«121600_j1726576857091_1_alg».proof.Proof.Spec
import proofs.«121600_j1726576857091_1_alg».proof.Proof.Gen.KernelIdeal.Skeleton
import Idealize.ShloMosaic.Lib.ValueLayout
import Idealize.ShloMosaic.PureOps.Ideal.Laws

noncomputable section

namespace Cert.CenterLoss.Payload

open Idealize.ShloMosaic Idealize.ShloMosaic.ValueIdx Cert.KernelIdeal Cert.KernelIdeal.Gen

/-! ## The product of the two blocks at an entry -/

/-- The operand indices of the product at result index `i` and contraction position `q`, axis by axis: the left
    operand is read at row `i 0`, the right operand at row `i 1`, and both at column `q`. -/
theorem dotL0 (i : S64x10000.Idx) (q : dot_S64x512_S10000x512_S64x10000_1_1_0_0_n_n.contr.Idx) :
    (dot_S64x512_S10000x512_S64x10000_1_1_0_0_n_n.lhsIdx i q 0).val = (i 0).val := by
  unfold DotDims.lhsIdx
  rw [dif_neg (show ¬(0 : Fin S64x512.rank) ∈ dot_S64x512_S10000x512_S64x10000_1_1_0_0_n_n.lhsBatch by decide),
    dif_pos (show (0 : Fin S64x512.rank) ∈ dot_S64x512_S10000x512_S64x10000_1_1_0_0_n_n.lhsNonContracting by decide)]
  rfl

theorem dotL1 (i : S64x10000.Idx) (q : dot_S64x512_S10000x512_S64x10000_1_1_0_0_n_n.contr.Idx) :
    (dot_S64x512_S10000x512_S64x10000_1_1_0_0_n_n.lhsIdx i q 1).val = (q ⟨0, by decide⟩).val :=
  dot_S64x512_S10000x512_S64x10000_1_1_0_0_n_n.lhsIdx_val_of_single rfl i q

theorem dotR0 (i : S64x10000.Idx) (q : dot_S64x512_S10000x512_S64x10000_1_1_0_0_n_n.contr.Idx) :
    (dot_S64x512_S10000x512_S64x10000_1_1_0_0_n_n.rhsIdx i q 0).val = (i 1).val := by
  unfold DotDims.rhsIdx
  rw [dif_neg (show ¬(0 : Fin S10000x512.rank) ∈ dot_S64x512_S10000x512_S64x10000_1_1_0_0_n_n.rhsBatch by decide),
    dif_pos (show (0 : Fin S10000x512.rank) ∈ dot_S64x512_S10000x512_S64x10000_1_1_0_0_n_n.rhsNonContracting by decide)]
  rfl

theorem dotR1 (i : S64x10000.Idx) (q : dot_S64x512_S10000x512_S64x10000_1_1_0_0_n_n.contr.Idx) :
    (dot_S64x512_S10000x512_S64x10000_1_1_0_0_n_n.rhsIdx i q 1).val = (q ⟨0, by decide⟩).val :=
  dot_S64x512_S10000x512_S64x10000_1_1_0_0_n_n.rhsIdx_val_of_single rfl i q

/-- The matrix product into a zero accumulator, at row `r` and column `c`: the inner product of row `r` of the left
    block and row `c` of the right block (both operands are contracted along their second axis). -/
theorem dot_apply (a : FVec Ideal S64x512 .bf16) (b : FVec Ideal S10000x512 .bf16) (r : Fin 64) (c : Fin 10000) :
    matmul dot_S64x512_S10000x512_S64x10000_1_1_0_0_n_n none a b (constant (F := Ideal) S64x10000 .f32 0x00000000#32) (ix2 r c)
      = ∑ k : Fin 512, a (ix2 r k) * b (ix2 c k) := by
  simp only [matmul]
  rw [Ideal.matmul_constant_zero_apply, ← Equiv.sum_comp (ValueIdx.contrEquiv1 dot_S64x512_S10000x512_S64x10000_1_1_0_0_n_n 512 rfl rfl).symm]
  refine Finset.sum_congr rfl fun k _ => ?_
  have hk := ValueIdx.contrEquiv1_symm_val dot_S64x512_S10000x512_S64x10000_1_1_0_0_n_n 512 rfl rfl k
  have el : dot_S64x512_S10000x512_S64x10000_1_1_0_0_n_n.lhsIdx (ix2 r c) ((ValueIdx.contrEquiv1 dot_S64x512_S10000x512_S64x10000_1_1_0_0_n_n 512 rfl rfl).symm k) = ix2 r k := funext fun x => Fin.ext (by
    match x with
    | ⟨0, _⟩ => exact dotL0 _ _
    | ⟨1, _⟩ => exact (dotL1 _ _).trans hk)
  have er : dot_S64x512_S10000x512_S64x10000_1_1_0_0_n_n.rhsIdx (ix2 r c) ((ValueIdx.contrEquiv1 dot_S64x512_S10000x512_S64x10000_1_1_0_0_n_n 512 rfl rfl).symm k) = ix2 c k := funext fun x => Fin.ext (by
    match x with
    | ⟨0, _⟩ => exact dotR0 _ _
    | ⟨1, _⟩ => exact (dotR1 _ _).trans hk)
  rw [el, er]

/-! ## Layout operations at an entry -/

/-- A column `[a, 1]` spread over `b` columns reads, at `(p, c)`, the column's row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` viewed as a column `[a, 1]` reads, at `(i, u)`, the vector at `i`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## The two sums -/

/-- The sum along the columns, at row `r`. -/
theorem rowSum_apply (v : FVec Ideal S64x10000 .f32) (r : Fin 64) :
    multiReduction (F := Ideal) .add [1] S64 v 0x00000000#32 reduces_S64x10000_S64 (.inl rfl) rfl (ix1 r)
      = ∑ c : Fin 10000, v (ix2 r c) := by
  refine (Ideal.multiReduction_add_single v _ reduces_S64x10000_S64 _ _ (ix1 r)).trans ?_
  refine Finset.sum_congr rfl fun c _ => ?_
  exact congrArg v (funext fun a => Fin.ext (by match a with | ⟨0, _⟩ => rfl | ⟨1, _⟩ => rfl))

/-- The sum of a column `[64, 1]` along its rows, at its one index. -/
theorem colSum_apply (v : FVec Ideal S64x1 .f32) (u : Fin 1) :
    multiReduction (F := Ideal) .add [0] S1 v 0x00000000#32 reduces_S64x1_S1 (.inl rfl) rfl (ix1 u)
      = ∑ r : Fin 64, v (ix2 r (0 : Fin 1)) := by
  refine (Ideal.multiReduction_add_single v _ reduces_S64x1_S1 _ _ (ix1 u)).trans ?_
  refine Finset.sum_congr rfl fun r _ => ?_
  exact congrArg v (funext fun a => Fin.ext (by match a with | ⟨0, _⟩ => rfl | ⟨1, _⟩ => have := u.isLt; show u.val = 0; omega))

/-! ## The clipped matrix at an entry -/

/-- The body's matrix before its two sums: the kept distances, clamped. -/
def clipped (x0 : Vec Ideal S64x512 .bf16) (x1 : Vec Ideal S10000x512 .bf16) (x2 : Vec Ideal S64x1 .f32)
    (x3 : Vec Ideal S1x10000 .f32) (x4 : Vec Ideal S64x1 .i32) : FVec Ideal S64x10000 .f32 :=
  minimumf (broadcast S64x10000 (Scalar.ofBits .f32 0x5368D4A5#32))
    (maximumf (broadcast S64x10000 (Scalar.ofBits .f32 0x2B8CBCCC#32))
      (select
        (cmpi .eq (broadcastTo S64x10000 (shapeCast S64x1 x4 shapeCasts_S64x1_S64x1 : IVec S64x1 32) broadcasts_S64x1_S64x10000)
          (iota .tc S64x10000 32 [1] iota_S64x10000_d1_w32))
        (subf
          (addf (broadcastTo S64x10000 (shapeCast S64x1 x2 shapeCasts_S64x1_S64x1 : FVec Ideal S64x1 .f32) broadcasts_S64x1_S64x10000)
            (broadcastTo S64x10000 (shapeCast S1x10000 x3 shapeCasts_S1x10000_S1x10000 : FVec Ideal S1x10000 .f32) broadcasts_S1x10000_S64x10000))
          (mulf (broadcast S64x10000 (Scalar.ofBits .f32 0x40000000#32))
            (matmul dot_S64x512_S10000x512_S64x10000_1_1_0_0_n_n none
              (shapeCast S64x512 x0 shapeCasts_S64x512_S64x512 : FVec Ideal S64x512 .bf16)
              (shapeCast S10000x512 x1 shapeCasts_S10000x512_S10000x512 : FVec Ideal S10000x512 .bf16)
              (constant S64x10000 .f32 0x00000000#32))))
        (broadcast S64x10000 (Scalar.ofBits .f32 0x00000000#32))))

/-- The body is the accumulator plus the two sums of the clipped matrix, through the two views. -/
theorem pay4_eq (x0 : Vec Ideal S64x512 .bf16) (x1 : Vec Ideal S10000x512 .bf16) (x2 : Vec Ideal S64x1 .f32)
    (x3 : Vec Ideal S1x10000 .f32) (x4 : Vec Ideal S64x1 .i32) (acc : Vec Ideal S1x1 .f32) :
    k0_pay4 (F := Ideal) x0 x1 x2 x3 x4 acc
      = addf acc (shapeCast S1x1
          (multiReduction (F := Ideal) .add [0] S1
            (shapeCast S64x1
              (multiReduction (F := Ideal) .add [1] S64 (clipped x0 x1 x2 x3 x4) 0x00000000#32 reduces_S64x10000_S64 (.inl rfl) rfl)
              shapeCasts_S64_S64x1)
            0x00000000#32 reduces_S64x1_S1 (.inl rfl) rfl)
          shapeCasts_S1_S1x1) := rfl

/-- The label test at an entry: the row's label against the column's number. -/
theorem hit_apply (x4 : Vec Ideal S64x1 .i32) (r : Fin 64) (c : Fin 10000) :
    cmpi .eq (broadcastTo S64x10000 x4 broadcasts_S64x1_S64x10000) (iota .tc S64x10000 32 [1] iota_S64x10000_d1_w32) (ix2 r c)
      = IntOp.cmpi .eq (x4 (ix2 r (0 : Fin 1))) (BitVec.ofNat 32 c.val) := by
  show IntOp.cmpi .eq (broadcastTo S64x10000 x4 broadcasts_S64x1_S64x10000 (ix2 r c))
      (iota .tc S64x10000 32 [1] iota_S64x10000_d1_w32 (ix2 r c)) = _
  rw [broadcastTo_a1_ab_apply, iota_single_apply]

/-- The clipped matrix at row `r`, column `c` is the specification's clamped entry, of the row's squared norm, the
    column's squared norm, the inner product of the two rows, and the test that the column is the row's label. -/
theorem clipped_apply (x0 : Vec Ideal S64x512 .bf16) (x1 : Vec Ideal S10000x512 .bf16) (x2 : Vec Ideal S64x1 .f32)
    (x3 : Vec Ideal S1x10000 .f32) (x4 : Vec Ideal S64x1 .i32) (r : Fin 64) (c : Fin 10000) :
    clipped x0 x1 x2 x3 x4 (ix2 r c)
      = entryOf (x2 (ix2 r (0 : Fin 1))) (x3 (ix2 (0 : Fin 1) c)) (∑ k : Fin 512, x0 (ix2 r k) * x1 (ix2 c k))
          (x4 (ix2 r (0 : Fin 1)) = BitVec.ofNat 32 c.val) := by
  unfold clipped
  simp only [shapeCast_self]
  rw [minimumf_apply, maximumf_apply, select_apply, subf_apply, addf_apply, mulf_apply]
  simp only [broadcast_apply]
  rw [dot_apply, broadcastTo_a1_ab_apply, broadcastTo_1b_ab_apply, hit_apply, select_cmpi_eq]
  have h0 : FloatOps.ofBits (F := Ideal) .f32 0x00000000#32 = 0 := Ideal.ofBits_zero_f32
  rw [h0]
  rfl

/-! ## The statement -/

theorem pay4_apply (x0 : Vec Ideal S64x512 .bf16) (x1 : Vec Ideal S10000x512 .bf16) (x2 : Vec Ideal S64x1 .f32)
    (x3 : Vec Ideal S1x10000 .f32) (x4 : Vec Ideal S64x1 .i32) (acc : Vec Ideal S1x1 .f32) (y : S1x1.Idx) :
    k0_pay4 (F := Ideal) x0 x1 x2 x3 x4 acc y
      = acc y + ∑ r : Fin 64, ∑ c : Fin 10000,
          entryOf (x2 (ix2 r (0 : Fin 1))) (x3 (ix2 (0 : Fin 1) c)) (∑ k : Fin 512, x0 (ix2 r k) * x1 (ix2 c k))
            (x4 (ix2 r (0 : Fin 1)) = BitVec.ofNat 32 c.val) := by
  obtain ⟨p, q, rfl⟩ : ∃ (p : Fin 1) (q : Fin 1), y = ix2 p q := ⟨y 0, y 1, eq_ix2 y⟩
  rw [pay4_eq, addf_apply]
  refine congrArg (acc (ix2 p q) + ·) ?_
  refine (shapeCast_a_1a_apply _ shapeCasts_S1_S1x1 p q).trans ?_
  refine (colSum_apply _ q).trans ?_
  refine Finset.sum_congr rfl fun r _ => ?_
  refine (shapeCast_a_a1_apply _ shapeCasts_S64_S64x1 r (0 : Fin 1)).trans ?_
  refine (rowSum_apply _ r).trans ?_
  exact Finset.sum_congr rfl fun c _ => clipped_apply x0 x1 x2 x3 x4 r c

end Cert.CenterLoss.Payload

end
-- ==== Proof.Pieces.lean ====
/-
  What the kernel body leaves at one grid point, as values.

  The body keeps a running total in a 1x1 scratch cell. At the first grid point it stores zero there, reads it
  back, adds the point's partial sum and stores the total; at every later point it reads the total the point before
  left, adds, and stores. Each time it then reads the total once more and writes the total divided by the sample
  count to the 1x1 output block. So, with `P` the point's arithmetic (`k0_pay4`), `Z` the zero cell (`k0_pay3`),
  `C` the shape cast in front of the store (`k0_pay1`) and `D` the division (`k0_pay2`):

    first point:   scratch = C (P blocks Z),     output = D (C (P blocks Z))
    later points:  scratch = C (P blocks prev),  output = D (C (P blocks prev))

  Here these four facts are read off the stores the body's run found: one covering store per cell, a load of a
  whole cell reading the cell's contents, and a load after a covering store reading what was stored.
-/
import proofs.«121600_j1726576857091_1_alg».proof.Proof.Gen.KernelIdeal.Frame
import Idealize.ShloMosaic.Lib.Pipeline.Value
import Idealize.ShloMosaic.Lib.Tactic

noncomputable section

namespace Cert.CenterLoss.Pieces

open Idealize.ShloMosaic Idealize.ShloMosaic.TcCoe Idealize.SL.Sem
open Cert.KernelIdeal Cert.KernelIdeal.Gen

variable {F : FTy → Type} [FloatOps F]

/-- The zero offsets of a whole-cell access. -/
theorem hz : (![0, 0] : Fin 2 → Nat) = fun _ => 0 := funext fun a => by fin_cases a <;> rfl

/-- A load of the whole cell after stores of which the LAST covered the whole cell reads that last store's value,
    whatever was stored before it. -/
theorem readCov_cons_whole {Val : EltTy → Type} [∀ e, Nonempty (Val e)] {S : Shape} {e : EltTy} {sig : RefSig} {κ : Kind}
    {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, by
    show y ∈ (Rect.whole S).set; rw [Rect.set_whole]; exact Finset.mem_univ y⟩), View.canon_cons_unit_zero rfl,
    View.ld_unit_zero rfl]

/-- A later point leaves in the scratch cell the point's arithmetic over the total the point before left. -/
theorem scratch_B (c : Dev nD) (i : grid0.Coords) (a1 : Memref sig .tc .vmem S64x512 .bf16) (h1 : a1.IsWhole) (a2 : Memref sig .tc .vmem S10000x512 .bf16) (h2 : a2.IsWhole) (a3 : Memref sig .tc .vmem S64x1 .f32) (h3 : a3.IsWhole) (a4 : Memref sig .tc .vmem S1x10000 .f32) (h4 : a4.IsWhole) (a5 : Memref sig .tc .vmem S64x1 .i32) (h5 : a5.IsWhole) (a6 : Memref sig .tc .vmem S1x1 .f32) (h6 : a6.IsWhole) (a7 : Memref sig .tc .vmem S1x1 .f32) (h7 : a7.IsWhole) (hc : ¬cond0_0 i) (x0 : Vec F S64x512 .bf16) (x1 : Vec F S10000x512 .bf16) (x2 : Vec F S64x1 .f32) (x3 : Vec F S1x10000 .f32) (x4 : Vec F S64x1 .i32) (xs0 : Vec F S1x1 .f32) :
    sout0_B_0 c i a1 h1 a2 h2 a3 h3 a4 h4 a5 h5 a6 h6 a7 h7 hc x0 x1 x2 x3 x4 xs0 = k0_pay1 (k0_pay4 x0 x1 x2 x3 x4 xs0) := by
  unfold sout0_B_0
  rw [View.read_writes_eq_canon _ _ _ (scover0_B_0 c i a1 h1 a2 h2 a3 h3 a4 h4 a5 h5 a6 h6 a7 h7 hc x0 x1 x2 x3 x4 xs0)]
  unfold kernelRun0_B
  dsimp only
  sl_unfold_words
  rw [View.canon_unit_zero hz]
  simp only [View.readAt_eq_ld, h1.read_unread, h2.read_unread, h3.read_unread, h4.read_unread, h5.read_unread,
    h7.read_unread, View.ld_unit_zero (S := S64x512) hz, View.ld_unit_zero (S := S10000x512) hz,
    View.ld_unit_zero (S := S64x1) hz, View.ld_unit_zero (S := S1x10000) hz, View.ld_unit_zero (S := S1x1) hz]

/-- The first point leaves there the point's arithmetic over the zero cell it has just stored. -/
theorem scratch_A (c : Dev nD) (i : grid0.Coords) (a1 : Memref sig .tc .vmem S64x512 .bf16) (h1 : a1.IsWhole) (a2 : Memref sig .tc .vmem S10000x512 .bf16) (h2 : a2.IsWhole) (a3 : Memref sig .tc .vmem S64x1 .f32) (h3 : a3.IsWhole) (a4 : Memref sig .tc .vmem S1x10000 .f32) (h4 : a4.IsWhole) (a5 : Memref sig .tc .vmem S64x1 .i32) (h5 : a5.IsWhole) (a6 : Memref sig .tc .vmem S1x1 .f32) (h6 : a6.IsWhole) (a7 : Memref sig .tc .vmem S1x1 .f32) (h7 : a7.IsWhole) (hc : cond0_0 i) (x0 : Vec F S64x512 .bf16) (x1 : Vec F S10000x512 .bf16) (x2 : Vec F S64x1 .f32) (x3 : Vec F S1x10000 .f32) (x4 : Vec F S64x1 .i32) :
    sout0_A_0 c i a1 h1 a2 h2 a3 h3 a4 h4 a5 h5 a6 h6 a7 h7 hc x0 x1 x2 x3 x4 = k0_pay1 (k0_pay4 x0 x1 x2 x3 x4 (k0_pay3 (F := F))) := by
  unfold sout0_A_0
  rw [View.read_writes_eq_canon _ _ _ (scover0_A_0 c i a1 h1 a2 h2 a3 h3 a4 h4 a5 h5 a6 h6 a7 h7 hc x0 x1 x2 x3 x4)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
    View.ld_unit_zero (S := S64x512) hz, View.ld_unit_zero (S := S10000x512) hz,
    View.ld_unit_zero (S := S64x1) hz, View.ld_unit_zero (S := S1x10000) hz]

/-- A later point writes to the output block the division of the total it has just stored. -/
theorem out_B (c : Dev nD) (i : grid0.Coords) (a1 : Memref sig .tc .vmem S64x512 .bf16) (h1 : a1.IsWhole) (a2 : Memref sig .tc .vmem S10000x512 .bf16) (h2 : a2.IsWhole) (a3 : Memref sig .tc .vmem S64x1 .f32) (h3 : a3.IsWhole) (a4 : Memref sig .tc .vmem S1x10000 .f32) (h4 : a4.IsWhole) (a5 : Memref sig .tc .vmem S64x1 .i32) (h5 : a5.IsWhole) (a6 : Memref sig .tc .vmem S1x1 .f32) (h6 : a6.IsWhole) (a7 : Memref sig .tc .vmem S1x1 .f32) (h7 : a7.IsWhole) (hc : ¬cond0_0 i) (x0 : Vec F S64x512 .bf16) (x1 : Vec F S10000x512 .bf16) (x2 : Vec F S64x1 .f32) (x3 : Vec F S1x10000 .f32) (x4 : Vec F S64x1 .i32) (xs0 : Vec F S1x1 .f32) :
    out0_B_5 c i a1 h1 a2 h2 a3 h3 a4 h4 a5 h5 a6 h6 a7 h7 hc x0 x1 x2 x3 x4 xs0 = k0_pay2 (k0_pay1 (k0_pay4 x0 x1 x2 x3 x4 xs0)) := by
  unfold out0_B_5
  rw [View.read_writes_eq_canon _ _ _ (cover0_B_5 c i a1 h1 a2 h2 a3 h3 a4 h4 a5 h5 a6 h6 a7 h7 hc x0 x1 x2 x3 x4 xs0)]
  unfold kernelRun0_B
  dsimp only
  sl_unfold_words
  rw [View.canon_unit_zero hz, View.readCov_unit_zero (S := S1x1) _ hz]
  simp only [View.readAt_eq_ld, h1.read_unread, h2.read_unread, h3.read_unread, h4.read_unread, h5.read_unread,
    h7.read_unread, View.ld_unit_zero (S := S64x512) hz, View.ld_unit_zero (S := S10000x512) hz,
    View.ld_unit_zero (S := S64x1) hz, View.ld_unit_zero (S := S1x10000) hz, View.ld_unit_zero (S := S1x1) hz]

/-- The first point likewise, over the zero cell. -/
theorem out_A (c : Dev nD) (i : grid0.Coords) (a1 : Memref sig .tc .vmem S64x512 .bf16) (h1 : a1.IsWhole) (a2 : Memref sig .tc .vmem S10000x512 .bf16) (h2 : a2.IsWhole) (a3 : Memref sig .tc .vmem S64x1 .f32) (h3 : a3.IsWhole) (a4 : Memref sig .tc .vmem S1x10000 .f32) (h4 : a4.IsWhole) (a5 : Memref sig .tc .vmem S64x1 .i32) (h5 : a5.IsWhole) (a6 : Memref sig .tc .vmem S1x1 .f32) (h6 : a6.IsWhole) (a7 : Memref sig .tc .vmem S1x1 .f32) (h7 : a7.IsWhole) (hc : cond0_0 i) (x0 : Vec F S64x512 .bf16) (x1 : Vec F S10000x512 .bf16) (x2 : Vec F S64x1 .f32) (x3 : Vec F S1x10000 .f32) (x4 : Vec F S64x1 .i32) :
    out0_A_5 c i a1 h1 a2 h2 a3 h3 a4 h4 a5 h5 a6 h6 a7 h7 hc x0 x1 x2 x3 x4 = k0_pay2 (k0_pay1 (k0_pay4 x0 x1 x2 x3 x4 (k0_pay3 (F := F)))) := by
  unfold out0_A_5
  rw [View.read_writes_eq_canon _ _ _ (cover0_A_5 c i a1 h1 a2 h2 a3 h3 a4 h4 a5 h5 a6 h6 a7 h7 hc x0 x1 x2 x3 x4)]
  unfold kernelRun0_A
  dsimp only
  sl_unfold_words
  rw [View.canon_unit_zero hz, readCov_cons_whole (S := S1x1) _ hz, View.readCov_unit_zero (S := S1x1) _ hz]
  simp only [View.readAt_eq_ld, h1.read_unread, h2.read_unread, h3.read_unread, h4.read_unread, h5.read_unread,
    View.ld_unit_zero (S := S64x512) hz, View.ld_unit_zero (S := S10000x512) hz,
    View.ld_unit_zero (S := S64x1) hz, View.ld_unit_zero (S := S1x10000) hz]

end Cert.CenterLoss.Pieces

end
-- ==== Proof.Chain.lean ====
/-
  The running total, point by point.

  With the one-point facts in hand the region's contents are a plain recursion on the grid point: the scratch cell
  after the first point is the point's arithmetic over the zero cell; after each later point it is the point's
  arithmetic over what the point before left; and the output block after any point is the division of the scratch
  cell's contents at that moment.
-/
import proofs.«121600_j1726576857091_1_alg».proof.Proof.Pieces

noncomputable section

namespace Cert.CenterLoss.Chain

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ)

/-- The five input blocks at point `t`, each at its literal type. -/
abbrev xblk (c : Dev nD) (t : Fin cfg0.N) : Vec F S64x512 .bf16 := iblk m c 0 t
abbrev cblk (c : Dev nD) (t : Fin cfg0.N) : Vec F S10000x512 .bf16 := iblk m c 1 t
abbrev xsblk (c : Dev nD) (t : Fin cfg0.N) : Vec F S64x1 .f32 := iblk m c 2 t
abbrev csblk (c : Dev nD) (t : Fin cfg0.N) : Vec F S1x10000 .f32 := iblk m c 3 t
abbrev lblk (c : Dev nD) (t : Fin cfg0.N) : Vec F S64x1 .i32 := iblk m c 4 t

/-- One point's update of the total: the point's arithmetic on its blocks over the incoming total. -/
def step (c : Dev nD) (t : Fin cfg0.N) (acc : Vec F S1x1 .f32) : Vec F S1x1 .f32 :=
  k0_pay1 (k0_pay4 (xblk m c t) (cblk m c t) (xsblk m c t) (csblk m c t) (lblk m c t) acc)

/-- The total after point `n`: from the zero cell at the first point, then point by point. -/
def total (c : Dev nD) : (n : ℕ) → n < cfg0.N → Vec F S1x1 .f32
  | 0, h => step m c ⟨0, h⟩ (k0_pay3 (F := F))
  | n + 1, h => step m c ⟨n + 1, h⟩ (total c n (Nat.lt_of_succ_lt h))

/-- After point `n` the output block holds the division of the total and the scratch cell the total. -/
theorem outsAt_eq (c : Dev nD) : ∀ (n : ℕ) (h : n < cfg0.N), outsAt0 m c n h = (k0_pay2 (total m c n h), total m c n h)
  | 0, h => by
    rw [show outsAt0 m c 0 h = outsAt0 m c (⟨0, h⟩ : Fin cfg0.N).val (⟨0, h⟩ : Fin cfg0.N).isLt from rfl,
      outsAt0_A m c ⟨0, h⟩ rfl, Pieces.out_A, Pieces.scratch_A]
    rfl
  | n + 1, h => by
    have hN : cfg0.N = 64 := N_0
    have hB : ¬(⟨n + 1, h⟩ : Fin cfg0.N).val % 64 = 0 := by dsimp only; omega
    rw [show outsAt0 m c (n + 1) h = outsAt0 m c (⟨n + 1, h⟩ : Fin cfg0.N).val (⟨n + 1, h⟩ : Fin cfg0.N).isLt from rfl,
      outsAt0_B m c ⟨n + 1, h⟩ hB, Pieces.out_B, Pieces.scratch_B]
    show (k0_pay2 (step m c ⟨n + 1, h⟩ (outsAt0 m c n _).2), step m c ⟨n + 1, h⟩ (outsAt0 m c n _).2) = _
    rw [outsAt_eq c n]
    rfl

end Cert.CenterLoss.Chain

end
-- ==== Proof.Regroup.lean ====
/-
  Summing over 4096 rows is summing over 64 blocks of 64 rows.

  Every row number below 4096 is 64·t + r for exactly one block t and one place r inside the block, both below 64
  (quotient and remainder by 64). So the pairs (t, r) are in bijection with the rows, a sum over the rows is the
  sum over the pairs, and a sum over pairs is the iterated sum, blocks outside and places inside.
-/
import Mathlib.Algebra.BigOperators.Fin
import Mathlib.Logic.Equiv.Fin.Basic
import Mathlib.Data.Fintype.BigOperators

namespace Cert.CenterLoss.Regroup

/-- Row `r` of block `t`. -/
def row (t r : Fin 64) : Fin 4096 := ⟨64 * t.val + r.val, by omega⟩

/-- The pairs (block, place in the block) are the 4096 rows: the pair (t, r) is sent to r + 64·t, and 64·64 = 4096. -/
def pairs : Fin 64 × Fin 64 ≃ Fin 4096 := finProdFinEquiv (m := 64) (n := 64)

/-- That bijection sends the pair (t, r) to row `r` of block `t`: r + 64·t = 64·t + r. -/
theorem pairs_apply (p : Fin 64 × Fin 64) : pairs p = row p.1 p.2 :=
  Fin.ext (Nat.add_comm p.2.val (64 * p.1.val))

theorem sum_blocks {M : Type*} [AddCommMonoid M] (f : Fin 4096 → M) :
    ∑ t : Fin 64, ∑ r : Fin 64, f (row t r) = ∑ b : Fin 4096, f b := by
  rw [← Fintype.sum_prod_type' (fun t r : Fin 64 => f (row t r))]
  exact Fintype.sum_equiv pairs _ _ (fun p => by rw [pairs_apply])

end Cert.CenterLoss.Regroup
-- ==== Proof.Blocks.lean ====
/-
  What a grid point loads, in terms of the three arguments.

  The host operations in front of the region prepare five arrays: the samples and the centres with their float
  format changed (the identity over the extended reals), the samples' squared norms as a column, the centres'
  squared norms as a row, and the labels as a column. Grid point `t` loads rows `64·t … 64·t + 63` of the three
  row-blocked arrays and the whole of the two resident ones. Here each loaded block is read at an index.
-/
import proofs.«121600_j1726576857091_1_alg».proof.Proof.Spec
import proofs.«121600_j1726576857091_1_alg».proof.Proof.Chain
import proofs.«121600_j1726576857091_1_alg».proof.Proof.Regroup
import Idealize.ShloMosaic.Lib.Pipeline.Value
import Idealize.ShloMosaic.Lib.StableHlo.Run
import Idealize.ShloMosaic.Lib.ValueIdx
import Idealize.ShloMosaic.PureOps.Ideal.Laws
import Idealize.ShloMosaic.Lib.Tactic

noncomputable section

namespace Cert.CenterLoss.Blocks

open Idealize.ShloMosaic Idealize.ShloMosaic.TcCoe Idealize.SL.Sem Idealize.ShloMosaic.ValueIdx
open Cert.KernelIdeal Cert.KernelIdeal.Gen
open Cert.CenterLoss.Chain (xblk cblk xsblk csblk lblk)
open Cert.CenterLoss.Regroup (row)

variable (m : (ℓ : Loc nD τ sig) → Buf (Elt Ideal) ℓ)

/-- The three argument arrays on core `c`. -/
abbrev X (c : Dev nD) : S4096x512.Idx → EReal := m ((c.tc : Thread nD τ).loc main_arg0)
abbrev Lb (c : Dev nD) : S4096.Idx → BitVec 32 := m ((c.tc : Thread nD τ).loc main_arg1)
abbrev Cn (c : Dev nD) : S10000x512.Idx → EReal := m ((c.tc : Thread nD τ).loc main_arg2)

/-! ## The arrays the region finds, from the host operations in front of it -/

/-- The sample matrix the region stages is the argument itself: the change of float format is the identity. -/
theorem V_v1 (c : Dev nD) :
    @Eq (FVec Ideal S4096x512 .bf16) (V m c main_v1) (truncf .bf16 (X m c) bitsLt_bf16_f32) := by
  show StableHlo.after hostOps0 (fun b => m (c, b)) (Proc.devRef .tc main_v1) = _
  after_results

/-- Likewise the class centres. -/
theorem V_v2 (c : Dev nD) :
    @Eq (FVec Ideal S10000x512 .bf16) (V m c main_v2) (truncf .bf16 (Cn m c) bitsLt_bf16_f32) := by
  show StableHlo.after hostOps0 (fun b => m (c, b)) (Proc.devRef .tc main_v2) = _
  after_results

/-- The labels as a column. -/
theorem V_v0 (c : Dev nD) :
    @Eq (IVec S4096x1 32) (V m c main_v0) (shapeCast S4096x1 (Lb m c) shapeCasts_S4096_S4096x1) := by
  show StableHlo.after hostOps0 (fun b => m (c, b)) (Proc.devRef .tc main_v0) = _
  after_results
  rfl

/-- The samples' squared norms as a column: each row's sum of squares, broadcast. -/
theorem V_v5 (c : Dev nD) :
    @Eq (FVec Ideal S4096x1 .f32) (V m c main_v5)
      (broadcastInDim S4096x1 ![0] bcast_S4096_S4096x1_0
        (Host.reduceAdd (mulf (X m c) (X m c)) (constant (F := Ideal) S_ .f32 0x00000000#32) reducesTo_S4096x512_S4096_d1 h_S_)) := by
  show StableHlo.after hostOps0 (fun b => m (c, b)) (Proc.devRef .tc main_v5) = _
  after_results

/-- The centres' squared norms as a row: each centre's sum of squares, broadcast to a column and transposed. -/
theorem V_v9 (c : Dev nD) :
    @Eq (FVec Ideal S1x10000 .f32) (V m c main_v9)
      (transpose S1x10000 [1, 0] (broadcastInDim S10000x1 ![0] bcast_S10000_S10000x1_0
        (Host.reduceAdd (mulf (Cn m c) (Cn m c)) (constant (F := Ideal) S_ .f32 0x00000000#32) reducesTo_S10000x512_S10000_d1 h_S_))
        transposes_S10000x1_S1x10000_1_0) := by
  show StableHlo.after hostOps0 (fun b => m (c, b)) (Proc.devRef .tc main_v9) = _
  after_results

/-! ## The blocks a grid point loads -/

/-- The grid point as a number below 64. -/
abbrev pt (t : Fin cfg0.N) : Fin 64 := ⟨t.val, lt_of_lt_of_eq t.isLt N_0⟩

/-- Where the windows' blocks start, decided once over the grid: the three row-blocked windows at row block `t`,
    the two resident ones at the origin. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- The sample block: rows `64·t …` of the sample matrix. -/
theorem xblk_apply (c : Dev nD) (t : Fin cfg0.N) (r : Fin 64) (k : Fin 512) :
    xblk m c t (ix2 r k) = X m c (ix2 (row (pt t) r) k) := by
  obtain ⟨h0, h1, -⟩ := idx_facts t
  unfold Chain.xblk iblk
  rw [View.read_apply]
  show V m c main_v1 _ = _
  rw [V_v1]
  show X m c _ = X m c _
  congr 1
  funext a
  apply Fin.ext
  match a with
  | ⟨0, _⟩ => show win0_0.index t 0 * 64 + 1 * r.val = 64 * t.val + r.val; rw [h0]; omega
  | ⟨1, _⟩ => show win0_0.index t 1 * 512 + 1 * k.val = k.val; rw [h1]; omega

/-- The centre block is the whole centre matrix at every point. -/
theorem cblk_apply (c : Dev nD) (t : Fin cfg0.N) (cc : Fin 10000) (k : Fin 512) :
    cblk m c t (ix2 cc k) = Cn m c (ix2 cc k) := by
  obtain ⟨-, -, h0, h1, -⟩ := idx_facts t
  unfold Chain.cblk iblk
  rw [View.read_apply]
  show V m c main_v2 _ = _
  rw [V_v2]
  show Cn m c _ = Cn m c _
  congr 1
  funext a
  apply Fin.ext
  match a with
  | ⟨0, _⟩ => show win0_1.index t 0 * 10000 + 1 * cc.val = cc.val; rw [h0]; omega
  | ⟨1, _⟩ => show win0_1.index t 1 * 512 + 1 * k.val = k.val; rw [h1]; omega

/-- The host's sum of a row's squares from the zero word is the row's squared norm. -/
theorem rowSq_apply {n : Nat} (A : FVec Ideal (⟨2, ![n, 512]⟩ : Shape) .f32)
    (h' : (⟨2, ![n, 512]⟩ : Shape).ReducesTo [1] ⟨1, ![n]⟩) (h : (⟨2, ![n, 512]⟩ : Shape).Reduces [1] ⟨1, ![n]⟩)
    (b : Fin n) :
    Host.reduceAdd (mulf A A) (constant (F := Ideal) S_ .f32 0x00000000#32) h' h_S_ (ix1 b) = sqNorm A b := by
  simp only [Host.reduceAdd, Ideal.hostReduceAdd_def]
  rw [Ideal.hostReduceAdd_single h' h]
  show Ideal.ofBits .f32 0x00000000#32 + _ = _
  rw [Ideal.ofBits_zero_f32, zero_add]
  unfold sqNorm
  refine Finset.sum_congr rfl fun k _ => ?_
  have e : h.lift (ix1 b) k = ix2 b k := funext fun a => Fin.ext (by match a with | ⟨0, _⟩ => rfl | ⟨1, _⟩ => rfl)
  rw [e]
  rfl

/-- The samples' squared-norm block: the squared norms of rows `64·t …`. -/
theorem xsblk_apply (c : Dev nD) (t : Fin cfg0.N) (r : Fin 64) :
    xsblk m c t (ix2 r (0 : Fin 1)) = sqNorm (X m c) (row (pt t) r) := by
  obtain ⟨-, -, -, -, h0, h1, -⟩ := idx_facts t
  unfold Chain.xsblk iblk
  rw [View.read_apply]
  show V m c main_v5 _ = _
  rw [V_v5]
  refine (broadcastInDim_apply _ bcast_S4096_S4096x1_0 _ _ (ix1 (row (pt t) r)) (fun a => match a with
    | ⟨0, _⟩ => ?_)).trans (rowSq_apply (X m c) reducesTo_S4096x512_S4096_d1 (by decide) (row (pt t) r))
  show 64 * t.val + r.val = if (4096 : Nat) = 1 then 0 else win0_2.index t 0 * 64 + 1 * r.val
  rw [if_neg (by decide), h0]; omega

/-- The centres' squared-norm block: all the centres' squared norms, at every point. -/
theorem csblk_apply (c : Dev nD) (t : Fin cfg0.N) (cc : Fin 10000) :
    csblk m c t (ix2 (0 : Fin 1) cc) = sqNorm (Cn m c) cc := by
  obtain ⟨-, -, -, -, -, -, h0, h1, -⟩ := idx_facts t
  unfold Chain.csblk iblk
  rw [View.read_apply]
  show V m c main_v9 _ = _
  rw [V_v9]
  refine (transpose_apply [1, 0] _ transposes_S10000x1_S1x10000_1_0 _ (ix2 cc (0 : Fin 1)) (fun b => match b with
    | ⟨0, _⟩ => ?_
    | ⟨1, _⟩ => ?_)).trans ?_
  · show 0 = win0_3.index t 0 * 1 + 1 * 0; rw [h0]
  · show cc.val = win0_3.index t 1 * 10000 + 1 * cc.val; rw [h1]; omega
  refine (broadcastInDim_apply _ bcast_S10000_S10000x1_0 _ _ (ix1 cc) (fun a => match a with
    | ⟨0, _⟩ => ?_)).trans (rowSq_apply (Cn m c) reducesTo_S10000x512_S10000_d1 (by decide) cc)
  show cc.val = if (10000 : Nat) = 1 then 0 else cc.val
  rw [if_neg (by decide)]

/-- The label block: the labels of rows `64·t …`. -/
theorem lblk_apply (c : Dev nD) (t : Fin cfg0.N) (r : Fin 64) :
    lblk m c t (ix2 r (0 : Fin 1)) = Lb m c (ix1 (row (pt t) r)) := by
  obtain ⟨-, -, -, -, -, -, -, -, h0, h1⟩ := idx_facts t
  unfold Chain.lblk iblk
  rw [View.read_apply]
  show V m c main_v0 _ = _
  rw [V_v0]
  refine shapeCast_apply (Lb m c) shapeCasts_S4096_S4096x1 _ (ix1 (row (pt t) r)) ?_
  rw [Shape.rowMajor_val_one, Shape.rowMajor_val_two]
  show 64 * t.val + r.val = (win0_4.index t 0 * 64 + 1 * r.val) * 1 + (win0_4.index t 1 * 1 + 1 * 0)
  rw [h0, h1]; omega

end Cert.CenterLoss.Blocks

end
-- ==== Proof.Final.lean ====
/-
  The region's result array, and the kernel's result.

  The output block's index never moves, so it is written back once, after the last grid point, and that one block
  is the whole 1x1 result array: the array ends holding the division of the total after the last point. The one host
  operation after the region reshapes that 1x1 array to a scalar.
-/
import proofs.«121600_j1726576857091_1_alg».proof.Proof.Chain
import Idealize.ShloMosaic.Lib.Pipeline.Value
import Idealize.ShloMosaic.Lib.StableHlo.Run
import Idealize.ShloMosaic.Lib.Tactic

noncomputable section

namespace Cert.CenterLoss.Final

open Idealize.ShloMosaic Idealize.ShloMosaic.TcCoe Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The last of the 64 grid points. -/
theorem last_lt : 63 < cfg0.N := by rw [show cfg0.N = 64 from N_0]; decide
abbrev tLast : Fin cfg0.N := ⟨63, last_lt⟩

/-- What the result array ends holding: the division of the total after the last point. -/
abbrev result (c : Dev nD) : Buf (Elt F) ((c : Thread nD τ).loc main_v10) := k0_pay2 (Chain.total m c 63 last_lt)

/-- The one write-back, after the last point, writes it: the block at the origin of a 1x1 array is the array. -/
theorem flushed_eq (c : Dev nD) (t : Fin cfg0.N) (hf : (cfg0.win 5).flush t = true) :
    (dats m 0 c).flushed 5 t = ((cfg0.win 5).blk t).view.read (Elt F) (result m c) := by
  have hN : cfg0.N = 64 := N_0
  have h63 : t.val = 63 := by have := (flush0_5 t).mp hf; have := t.isLt; omega
  obtain rfl : t = tLast := Fin.ext h63
  show (cfg0.win 5).cut (grid0.coords tLast) ((dats m 0 c).after 5 tLast) = _
  rw [after0_5, Chain.outsAt_eq]
  have hz' : (fun a => win0_5.index tLast a * main_v10.ty.shape.size a) = fun _ => 0 :=
    funext fun a => by fin_cases a <;> decide
  exact (Memref.read_access_unit_zero (Elt F) main_v10 hz' (fun a => by rw [congrFun hz' a]; simp) (result m c)).symm

/-- The last point's block starts at the origin of the result array and is one row by one column. -/
theorem last_block : ∀ a : Fin 2,
    win0_5.index tLast a * win0_5.size a = 0 ∧ win0_5.xsize (grid0.coords tLast) a = 1 := by
  decide +kernel

/-- So it holds the array's one index, and the array ends at the division of the last total. -/
theorem final_o (c : Dev nD) : (dats m 0 c).arrAt 5 cfg0.N = result m c := by
  refine (dats m 0 c).arrAt_eq_of_cover 5 (result m c) (flushed_eq m c) fun i =>
    ⟨tLast, (flush0_5 tLast).mpr rfl, ?_⟩
  have hlt : ∀ a : Fin 2, (i a : Nat) < 1 := fun a => by
    match a with
    | ⟨0, _⟩ => exact (i 0).isLt
    | ⟨1, _⟩ => exact (i 1).isLt
  show i ∈ ((View.whole main_v10).slice (win0_5.rect tLast)).set
  rw [View.set_slice_whole, Rect.mem_set_unit]
  intro a
  obtain ⟨hoff, hext⟩ := last_block a
  show win0_5.index tLast a * win0_5.size a ≤ (i a : Nat)
    ∧ (i a : Nat) < win0_5.index tLast a * win0_5.size a + win0_5.xsize (grid0.coords tLast) a
  rw [hoff, hext]
  have := hlt a
  omega

/-- The kernel's result: the result array reshaped to a scalar. -/
abbrev scalar (c : Dev nD) : Buf (Elt F) ((c : Thread nD τ).loc main_v11) := shapeCast S_ (result m c) shapeCasts_S1x1_S_

/-- The host operation after the region leaves it in the result buffer. -/
theorem tail_eq (c : Dev nD) :
    Pipeline.afterTail₀ cfgs (dats m) 0 (V0 m) [hostOps1] c main_v11 = scalar m c := by
  unfold Pipeline.afterTail₀
  show StableHlo.after hostOps1 _ (Proc.devRef .tc main_v11) = _
  after_results
  have e := (Pipeline.withArrays_arr spec0 launch0.win.arr_inj c (V0 m c) (fun w => (dats m 0 c).arrAt w cfg0.N) 5).trans (final_o m c)
  funext i
  exact congrArg (fun v : Buf (Elt F) ((c : Thread nD τ).loc main_v10) => shapeCast S_ v shapeCasts_S1x1_S_ i) e

/-- The kernel's run, read: the result buffer ends at the scalar, the three arguments unchanged. -/
theorem run : θ_run defs (onTc (τ := τ) (main (F := F))) ⟨m, fun _ => 0, ρ⟩ fun r => ∀ c : Dev nD,
      r.2.mem ((c.tc : Thread nD τ).loc main_v11) = scalar m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v11 (Pipeline.mem_restRefs_of main_v11 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.CenterLoss.Final

end
-- ==== Proof.Total.lean ====
/-
  The kernel's result is the centre loss.

  At grid point `t` the body adds to the running total the sum, over the block's 64 rows and the 10000 classes, of the
  clamped entries of rows `64·t …` (the point's arithmetic read at its one index, over the blocks read as entries of
  the arguments). The first point starts from the zero cell, so after the last point the total is the sum over the 64
  points of those partial sums: every row of the sample matrix is in exactly one block, so this is the sum of all
  4096 × 10000 clamped entries. Addition of extended reals is commutative and associative, so no finiteness is
  needed to regroup. The output is that total over the sample count.
-/
import proofs.«121600_j1726576857091_1_alg».proof.Proof.Spec
import proofs.«121600_j1726576857091_1_alg».proof.Proof.Payload
import proofs.«121600_j1726576857091_1_alg».proof.Proof.Blocks
import proofs.«121600_j1726576857091_1_alg».proof.Proof.Final
import proofs.«121600_j1726576857091_1_alg».proof.Proof.Regroup
import Idealize.ShloMosaic.Lib.Pipeline.Value
import Idealize.ShloMosaic.Lib.ValueIdx
import Idealize.ShloMosaic.PureOps.Ideal.Laws

noncomputable section

namespace Cert.CenterLoss.Total

open Idealize.ShloMosaic Idealize.ShloMosaic.TcCoe Idealize.SL.Sem Idealize.ShloMosaic.ValueIdx
open Cert.KernelIdeal Cert.KernelIdeal.Gen
open Cert.CenterLoss.Blocks (X Lb Cn pt)
open Cert.CenterLoss.Regroup (row)

variable (m : (ℓ : Loc nD τ sig) → Buf (Elt Ideal) ℓ)

/-- The one index of a 1x1 cell. -/
theorem idx_one (y : S1x1.Idx) : y = ix2 (0 : Fin 1) (0 : Fin 1) := by
  funext a
  apply Fin.ext
  match a with
  | ⟨0, _⟩ => have h : (y 0).val < 1 := (y 0).isLt; show (y 0).val = 0; omega
  | ⟨1, _⟩ => have h : (y 1).val < 1 := (y 1).isLt; show (y 1).val = 0; omega

/-- Grid point `t`'s partial sum: the clamped entries of its 64 rows, over all classes. -/
def part (c : Dev nD) (t : Fin 64) : EReal :=
  ∑ r : Fin 64, ∑ cc : Fin 10000, entry (X m c) (Lb m c) (Cn m c) (row t r) cc

/-- One point's update adds its partial sum to the incoming total. -/
theorem step_eq (c : Dev nD) (t : Fin cfg0.N) (acc : Vec Ideal S1x1 .f32) :
    Chain.step m c t acc = fun _ => acc (ix2 (0 : Fin 1) (0 : Fin 1)) + part m c (pt t) := by
  funext y
  obtain rfl := idx_one y
  unfold Chain.step k0_pay1
  rw [shapeCast_self, Payload.pay4_apply]
  refine congrArg (acc (ix2 (0 : Fin 1) (0 : Fin 1)) + ·) ?_
  unfold part
  refine Finset.sum_congr rfl fun r _ => Finset.sum_congr rfl fun cc _ => ?_
  unfold entry inner
  rw [Blocks.xsblk_apply, Blocks.csblk_apply, Blocks.lblk_apply]
  simp only [Blocks.xblk_apply, Blocks.cblk_apply]

/-- The zero cell holds the number zero. -/
theorem zero_cell (y : S1x1.Idx) : k0_pay3 (F := Ideal) y = 0 := by
  unfold k0_pay3
  rw [shapeCast_self]
  show Ideal.ofBits .f32 0x00000000#32 = 0
  exact Ideal.ofBits_zero_f32

/-- A point's partial sum by its number (zero past the grid). -/
def partN (c : Dev nD) (t : ℕ) : EReal := if h : t < 64 then part m c ⟨t, h⟩ else 0

/-- After point `n` the total is the sum of the partial sums of points `0 … n`. -/
theorem total_eq (c : Dev nD) : ∀ (n : ℕ) (h : n < cfg0.N),
    Chain.total m c n h = fun _ => ∑ t ∈ Finset.range (n + 1), partN m c t
  | 0, h => by
    show Chain.step m c ⟨0, h⟩ (k0_pay3 (F := Ideal)) = _
    rw [step_eq, zero_cell, zero_add, Finset.sum_range_one]
    have h64 : (0 : ℕ) < 64 := by decide
    unfold partN
    rw [dif_pos h64]
  | n + 1, h => by
    have h64 : n + 1 < 64 := lt_of_lt_of_eq h N_0
    show Chain.step m c ⟨n + 1, h⟩ (Chain.total m c n _) = _
    rw [step_eq, total_eq c n, Finset.sum_range_succ _ (n + 1)]
    unfold partN
    rw [dif_pos h64]

/-- The sum over the 64 points of their partial sums is the sum of all clamped entries. -/
theorem sum_parts (c : Dev nD) :
    ∑ t ∈ Finset.range 64, partN m c t = ∑ b : Fin 4096, ∑ cc : Fin 10000, entry (X m c) (Lb m c) (Cn m c) b cc := by
  rw [← Regroup.sum_blocks (fun b => ∑ cc : Fin 10000, entry (X m c) (Lb m c) (Cn m c) b cc),
    ← Fin.sum_univ_eq_sum_range (fun t => partN m c t) 64]
  refine Finset.sum_congr rfl fun t _ => ?_
  unfold partN
  rw [dif_pos t.isLt]
  rfl

/-- The kernel's scalar result is the loss of the three arguments. -/
theorem scalar_eq (c : Dev nD) :
    Final.scalar m c = fun _ => loss (X m c) (Lb m c) (Cn m c) := by
  funext i
  refine (shapeCast_apply (Final.result m c) shapeCasts_S1x1_S_ i (ix2 (0 : Fin 1) (0 : Fin 1)) ?_).trans ?_
  · show (Shape.rowMajor S1x1 (ix2 (0 : Fin 1) (0 : Fin 1))).val = (Shape.rowMajor S_ i).val
    rw [Shape.rowMajor_val_two]
    show 0 * 1 + 0 = (Shape.rowMajor S_ i).val
    have h1 : (Shape.rowMajor S_ i).val < S_.numel := (Shape.rowMajor S_ i).isLt
    have h2 : S_.numel = 1 := by decide
    omega
  · show k0_pay2 (Chain.total m c 63 Final.last_lt) (ix2 (0 : Fin 1) (0 : Fin 1)) = _
    unfold k0_pay2
    rw [total_eq]
    show Ideal.div (∑ t ∈ Finset.range 64, partN m c t) (Ideal.ofBits .f32 0x45800000#32) = _
    rw [sum_parts]
    rfl

end Cert.CenterLoss.Total

end
-- ==== Proof.lean ====
/-
  The certificate: a centre-loss kernel against its reference, over the extended reals.

  Both programs compute, for 4096 samples with 512 features, integer labels and 10000 class centres, the mean over
  the samples of the clamped squared distances: for sample `b` and class `c` the squared distance
  `‖x_b‖² + ‖c_c‖² − 2·⟨x_b, c_c⟩` is kept on the sample's own class (the column equal to its label) and replaced by
  zero elsewhere, every entry is clamped to `[1e-12, 1e12]`, all 4096 × 10000 entries are summed and the sum is divided
  by 4096 (the specification, Proof/Spec.lean).

  The reference masks by multiplying with the label test read as `1.0` or `0.0` and sums everything at once
  (Proof/RefSide.lean: over the extended reals `d · 1 = d` and `d · 0 = 0` for every `d`, so the product is the
  choice). The kernel walks 64 blocks of 64 samples: the squared norms are computed on the host in front of the
  region, each grid point forms its block's products with all centres on the matrix unit (the change of float format
  in front of it is the identity here), selects, clamps, sums its 64 × 10000 entries and adds the partial sum to a
  running total kept in a scratch cell, which the first point starts from zero; after every point it writes the total
  over 4096 to the one output block, of which the last write survives (Proof/Pieces.lean, Chain.lean, Final.lean,
  Payload.lean, Blocks.lean). Every sample lies in exactly one block and addition of extended reals is commutative
  and associative, so the 64 partial sums add up to the sum of all entries (Proof/Regroup.lean, Total.lean); the
  finiteness of the inputs is never used.

  The three frames: the kernel's two are the generated frame runs; the reference has no kernel, and its frame is its
  generated run with the result dropped. The idealization rewrote nothing, so `preserves` is `True`.
-/
import proofs.«121600_j1726576857091_1_alg».proof.Defs
import proofs.«121600_j1726576857091_1_alg».proof.Proof.Gen.Kernel
import proofs.«121600_j1726576857091_1_alg».proof.Proof.Gen.Kernel.Frame
import proofs.«121600_j1726576857091_1_alg».proof.Proof.Gen.KernelIdeal
import proofs.«121600_j1726576857091_1_alg».proof.Proof.Gen.KernelIdeal.Frame
import proofs.«121600_j1726576857091_1_alg».proof.Proof.Gen.ReferenceIdeal
import proofs.«121600_j1726576857091_1_alg».proof.Proof.Gen.Pre_finite_inputs
import proofs.«121600_j1726576857091_1_alg».proof.Proof.Gen.ReferenceIdeal.Run
import proofs.«121600_j1726576857091_1_alg».proof.Proof.Gen.ReferenceIdeal.Read
import proofs.«121600_j1726576857091_1_alg».proof.Proof.RefSide
import proofs.«121600_j1726576857091_1_alg».proof.Proof.Total
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end at the loss of the shared arguments: the kernel's result buffer by the region's total, the
    reference's by its last stage. -/
theorem algebraic : Cert.algebraic_KernelIdeal_ReferenceIdeal := by
  intro m ρ m' ρ' _ hagree
  refine ⟨fun c => Cert.CenterLoss.Final.scalar m c, Cert.CenterLoss.Final.run (F := Ideal) m ρ, ?_⟩
  refine (θ_run Cert.ReferenceIdeal.defs _ _).mono (fun _ h c => ⟨(h c).1.trans ?_, (h c).2⟩)
    (Cert.ReferenceIdeal.Value.run (F := Ideal) m' ρ')
  show _ = Cert.CenterLoss.Final.scalar m c
  rw [Cert.ReferenceIdeal.Read.val_main_v24_eq, Cert.CenterLoss.RefSide.ref_eq, (hagree c).1, (hagree c).2.1,
    (hagree c).2.2, Cert.CenterLoss.Total.scalar_eq]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
